-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024x1 : Shape := ⟨2, ![1024, 1]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S8192x1024 .f32) (main_arg1 : FVec F S1024x1024 .f32) (main_arg2 : FVec F S1024x1024 .f32) (main_arg3 : FVec F S1024x1 .f32) (main_arg4 : FVec F S4096x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg4 main_v13 main_v16
-- ==== Kernel.lean ====
abbrev S8192x1024 : Shape := ⟨2, ![8192, 1024]⟩
abbrev S1024x1024 : Shape := ⟨2, ![1024, 1024]⟩
abbrev S1024x1 : Shape := ⟨2, ![1024, 1]⟩
abbrev S4096x1024 : Shape := ⟨2, ![4096, 1024]⟩
abbrev S1024x2048 : Shape := ⟨2, ![1024, 2048]⟩
abbrev S8192x2048 : Shape := ⟨2, ![8192, 2048]⟩
abbrev S512x1024 : Shape := ⟨2, ![512, 1024]⟩
abbrev S512x2048 : Shape := ⟨2, ![512, 2048]⟩
abbrev S_ : Shape := ⟨0, ![]⟩
abbrev S8192 : Shape := ⟨1, ![8192]⟩
abbrev S8192x1 : Shape := ⟨2, ![8192, 1]⟩
abbrev S4096 : Shape := ⟨1, ![4096]⟩
abbrev S4096x1 : Shape := ⟨2, ![4096, 1]⟩
abbrev S1x4096 : Shape := ⟨2, ![1, 4096]⟩
abbrev S8192x4096 : Shape := ⟨2, ![8192, 4096]⟩
abbrev S1x512 : Shape := ⟨2, ![1, 512]⟩
abbrev S1024x512 : Shape := ⟨2, ![1024, 512]⟩

abbrev nBuf : Space → Nat
  | .hbm => 24
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1, .f32⟩
  | .hbm, ⟨4, _⟩ => ⟨S4096x1024, .f32⟩
  | .hbm, ⟨5, _⟩ => ⟨S1024x2048, .f32⟩
  | .hbm, ⟨6, _⟩ => ⟨S8192x2048, .f32⟩
  | .hbm, ⟨7, _⟩ => ⟨S8192x1024, .f32⟩
  | .hbm, ⟨8, _⟩ => ⟨S8192x1024, .f32⟩
  | .hbm, ⟨9, _⟩ => ⟨S4096x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S8192x1, .f32⟩
  | .hbm, ⟨19, _⟩ => ⟨S4096x1, .f32⟩
  | .hbm, ⟨20, _⟩ => ⟨S8192x1, .f32⟩
  | .hbm, ⟨21, _⟩ => ⟨S4096x1, .f32⟩
  | .hbm, ⟨22, _⟩ => ⟨S1x4096, .f32⟩
  | .hbm, ⟨23, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S1024x2048, .f32⟩
  | .local _ .vmem, ⟨3, _⟩ => ⟨S512x2048, .f32⟩
  | .local _ .vmem, ⟨4, _⟩ => ⟨S512x2048, .f32⟩
  | .local _ .vmem, ⟨5, _⟩ => ⟨S512x1024, .f32⟩
  | .local _ .vmem, ⟨6, _⟩ => ⟨S512x1024, .f32⟩
  | .local _ .vmem, ⟨7, _⟩ => ⟨S1024x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .f32⟩
  | .local _ .vmem, ⟨11, _⟩ => ⟨S1024x1024, .f32⟩
  | .local _ .vmem, ⟨12, _⟩ => ⟨S512x1024, .f32⟩
  | .local _ .vmem, ⟨13, _⟩ => ⟨S512x1024, .f32⟩
  | .local _ .vmem, ⟨14, _⟩ => ⟨S1024x1, .f32⟩
  | .local _ .vmem, ⟨15, _⟩ => ⟨S1024x1, .f32⟩
  | .local _ .vmem, ⟨16, _⟩ => ⟨S1x512, .f32⟩
  | .local _ .vmem, ⟨17, _⟩ => ⟨S1x512, .f32⟩
  | .local _ .vmem, ⟨18, _⟩ => ⟨S1024x512, .f32⟩
  | .local _ .vmem, ⟨19, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  concatenates_S1024x1024_S1024x1024_S1024x2048_d1 : Shape.Concatenates [S1024x1024, S1024x1024] S1024x2048 1
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S512x2048_S512x2048_0_0 : ∀ a, (![0, 0] : Fin 2 → Nat) a + S512x2048.size a ≤ S512x2048.size a
  h_S512x2048 : 0 < S512x2048.numel
  slices_S8192x2048_S8192x1024_0_0 : S8192x2048.Slices ![0, 0] S8192x1024
  slices_S8192x2048_S8192x1024_0_1024 : S8192x2048.Slices ![0, 1024] S8192x1024
  inb_S1024x1024_S1024x1024_0_0 : ∀ a, (![0, 0] : Fin 2 → Nat) a + S1024x1024.size a ≤ S1024x1024.size a
  h_S1024x1024 : 0 < S1024x1024.numel
  reducesTo_S8192x1024_S8192_d1 : S8192x1024.ReducesTo [1] S8192
  h_S_ : 0 < S_.numel
  bcast_S8192_S8192x1_0 : S8192.BroadcastsInDim S8192x1 (![0] : Fin 1 → Fin S8192x1.rank)
  reducesTo_S4096x1024_S4096_d1 : S4096x1024.ReducesTo [1] S4096
  bcast_S4096_S4096x1_0 : S4096.BroadcastsInDim S4096x1 (![0] : Fin 1 → Fin S4096x1.rank)
  shapeCasts_S4096x1_S1x4096 : S4096x1.ShapeCasts S1x4096
  shapeCasts_S1024x1024_S1024x1024 : S1024x1024.ShapeCasts S1024x1024
  transposes_S512x1024_p1_0_S1024x512 : S512x1024.Transposes [1, 0] S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S512x1024_S1024x2048_S512x2048_1_0_0_1_n_n_wf : DotDims.WF S512x1024 S1024x2048 S512x2048 [1] [0] [0] [1] [] []
  dot_S512x1024_S1024x1024_S512x1024_1_0_0_1_n_n_wf : DotDims.WF S512x1024 S1024x1024 S512x1024 [1] [0] [0] [1] [] []
  dot_S8192x1024_S1024x1_S8192x1_1_0_0_1_n_n_wf : DotDims.WF S8192x1024 S1024x1 S8192x1 [1] [0] [0] [1] [] []
  dot_S4096x1024_S1024x1_S4096x1_1_0_0_1_n_n_wf : DotDims.WF S4096x1024 S1024x1 S4096x1 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .f32 = 32 ∨ (Rect.block (s := S1024x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .f32 = 32 ∨ (Rect.block (s := S8192x2048) S512x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x1024.size a
  hwx1_2 : ∀ i : grid1.Coords, EltTy.bits .f32 = 32 ∨ (Rect.block (s := S4096x1024) S512x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S4096x1024.size a
  hwx2_1 : ∀ i : grid2.Coords, EltTy.bits .f32 = 32 ∨ (Rect.block (s := S4096x1024) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x4096.size a
  hwx2_3 : ∀ i : grid2.Coords, EltTy.bits .f32 = 32 ∨ (Rect.block (s := S1x4096) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x512.size a ≤ S8192x4096.size a
  hwx2_4 : ∀ i : grid2.Coords, EltTy.bits .f32 = 32 ∨ (Rect.block (s := S8192x4096) S1024x512.size (cc2_transform_4 i) (hinb2_4 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S8192x1024_S1024x1_S8192x1_1_0_0_1_n_n : DotDims S8192x1024 S1024x1 S8192x1 where
  lhsContracting := [1]
  rhsContracting := [0]
  lhsNonContracting := [0]
  rhsNonContracting := [1]
  lhsBatch := []
  rhsBatch := []
  wf := dot_S8192x1024_S1024x1_S8192x1_1_0_0_1_n_n_wf
def dot_S4096x1024_S1024x1_S4096x1_1_0_0_1_n_n : DotDims S4096x1024 S1024x1 S4096x1 where
  lhsContracting := [1]
  rhsContracting := [0]
  lhsNonContracting := [0]
  rhsNonContracting := [1]
  lhsBatch := []
  rhsBatch := []
  wf := dot_S4096x1024_S1024x1_S4096x1_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg4) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v3) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v16) S1024x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024x1 : Shape := ⟨2, ![1024, 1]⟩
abbrev S4096x1024 : Shape := ⟨2, ![4096, 1024]⟩
abbrev S_ : Shape := ⟨0, ![]⟩
abbrev S8192 : Shape := ⟨1, ![8192]⟩
abbrev S4096 : Shape := ⟨1, ![4096]⟩
abbrev S8192x1 : Shape := ⟨2, ![8192, 1]⟩
abbrev S1x4096 : Shape := ⟨2, ![1, 4096]⟩
abbrev S8192x4096 : Shape := ⟨2, ![8192, 4096]⟩
abbrev S1024x4096 : Shape := ⟨2, ![1024, 4096]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1, .f32⟩
  | .hbm, ⟨4, _⟩ => ⟨S4096x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S8192x1, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S1024x4096, .f32⟩
  | .hbm, ⟨23, _⟩ => ⟨S8192x4096, .f32⟩
  | .hbm, ⟨24, _⟩ => ⟨S8192x1, .f32⟩
  | .hbm, ⟨25, _⟩ => ⟨S4096x1, .f32⟩
  | .hbm, ⟨26, _⟩ => ⟨S1x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  reducesTo_S4096x1024_S4096_d1 : S4096x1024.ReducesTo [1] S4096
  bcast_S8192_S8192x1_0 : S8192.BroadcastsInDim S8192x1 (![0] : Fin 1 → Fin S8192x1.rank)
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  bcast_S_S8192x1024 : S_.BroadcastsInDim S8192x1024 (![] : Fin 0 → Fin S8192x1024.rank)
  transposes_S4096x1024_S1024x4096_1_0 : S4096x1024.Transposes [1, 0] S1024x4096
  transposes_S4096x1_S1x4096_1_0 : S4096x1.Transposes [1, 0] S1x4096
  dot_S8192x1024_S1024x1024_S8192x1024_1_0_0_1_n_n_wf : DotDims.WF S8192x1024 S1024x1024 S8192x1024 [1] [0] [0] [1] [] []
  dot_S4096x1024_S1024x1024_S4096x1024_1_0_0_1_n_n_wf : DotDims.WF S4096x1024 S1024x1024 S4096x1024 [1] [0] [0] [1] [] []
  dot_S8192x1024_S1024x4096_S8192x4096_1_0_0_1_n_n_wf : DotDims.WF S8192x1024 S1024x4096 S8192x4096 [1] [0] [0] [1] [] []
  dot_S8192x1024_S1024x1_S8192x1_1_0_0_1_n_n_wf : DotDims.WF S8192x1024 S1024x1 S8192x1 [1] [0] [0] [1] [] []
  dot_S4096x1024_S1024x1_S4096x1_1_0_0_1_n_n_wf : DotDims.WF S4096x1024 S1024x1 S4096x1 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x1024_S1024x1_S8192x1_1_0_0_1_n_n : DotDims S8192x1024 S1024x1 S8192x1 where
  lhsContracting := [1]
  rhsContracting := [0]
  lhsNonContracting := [0]
  rhsNonContracting := [1]
  lhsBatch := []
  rhsBatch := []
  wf := dot_S8192x1024_S1024x1_S8192x1_1_0_0_1_n_n_wf
def dot_S4096x1024_S1024x1_S4096x1_1_0_0_1_n_n : DotDims S4096x1024 S1024x1 S4096x1 where
  lhsContracting := [1]
  rhsContracting := [0]
  lhsNonContracting := [0]
  rhsNonContracting := [1]
  lhsBatch := []
  rhsBatch := []
  wf := dot_S4096x1024_S1024x1_S4096x1_1_0_0_1_n_n_wf

class Facts : Prop extends Facts₀ where

variable [Facts]
-- ==== Proof.Spec.lean ====
/-
  The mathematics of the certificate, with no program in sight.

  For matrices over the extended reals write
    (A·W)[r, d]   = ∑ₖ A[r, k] · W[k, d]                         (`mm`)
    quad A W r    = z + ∑_d (A·W)[r, d] · A[r, d]                (`quad`: the quadratic form of row r, from the start value z)
    lin A v r     = ∑ₖ A[r, k] · v[k, 0]                         (`lin`: row r against a column)
  The kernel assembles, at (b, o),
    (c · ∑_d (x·bt)[b, d] · mo[o, d] + (quad x w b + lin x ot b)) + (quad mo w o + lin mo ot o)      (`kernelForm`)
  and the reference
    ((quad x w b + quad mo w o) + ∑_d (c · (x·bt)[b, d]) · mo[o, d]) + (lin x ot b + lin mo ot o)    (`refForm`)
  with c the float word of 2.0. The two agree on ALL extended reals: addition is commutative and associative there, and
  a factor 0 ≤ c < ⊤ distributes over any finite sum (`mul_sum_of_nonneg`: the only place a sign is used — at a
  negative or infinite factor, c · (⊤ + ⊥) and c · ⊤ + c · ⊥ differ). No finiteness of the entries is needed.
-/
import Idealize.ShloMosaic.PureOps.Ideal.Laws
import Idealize.ShloMosaic.Lib.ValueIdx
import Mathlib.Data.EReal.Operations

noncomputable section

open scoped BigOperators

namespace Cert.Spec

open Idealize.ShloMosaic Idealize.ShloMosaic.ValueIdx

/-- An `r × c` matrix of extended reals. -/
abbrev Mat (r c : ℕ) : Type := FVec Ideal ⟨2, ![r, c]⟩ .f32

variable {R K C : ℕ}

/-- Entry `(r, d)` of the product `A·W`. -/
def mm (A : Mat R K) (W : Mat K C) (r : Fin R) (d : Fin C) : EReal := ∑ k : Fin K, A (ix2 r k) * W (ix2 k d)

/-- The quadratic form `∑_d (A·W)[r, d] · A[r, d]` of row `r`, summed from the start value `z`. -/
def quad (z : EReal) (A : Mat R K) (W : Mat K K) (r : Fin R) : EReal := z + ∑ d : Fin K, mm A W r d * A (ix2 r d)

/-- Row `r` of `A` against the column `v`. -/
def lin (A : Mat R K) (v : Mat K 1) (r : Fin R) : EReal := ∑ k : Fin K, A (ix2 r k) * v (ix2 k (0 : Fin 1))

variable {B D O : ℕ}

/-- What the kernel leaves at `(b, o)`: the scaled bilinear term first, then the row's bias, then the column's. -/
def kernelForm (z c : EReal) (x : Mat B D) (w bt : Mat D D) (ot : Mat D 1) (mo : Mat O D) (b : Fin B) (o : Fin O) : EReal :=
  (c * (∑ d : Fin D, mm x bt b d * mo (ix2 o d)) + (quad z x w b + lin x ot b)) + (quad z mo w o + lin mo ot o)

/-- What the reference computes at `(b, o)`: the two quadratic forms, the bilinear term with the factor inside, the two
    linear terms. -/
def refForm (z c : EReal) (x : Mat B D) (w bt : Mat D D) (ot : Mat D 1) (mo : Mat O D) (b : Fin B) (o : Fin O) : EReal :=
  ((quad z x w b + quad z mo w o) + ∑ d : Fin D, (c * mm x bt b d) * mo (ix2 o d)) + (lin x ot b + lin mo ot o)

/-- A factor `0 ≤ c < ⊤` distributes over a finite sum of extended reals, whatever the summands. -/
theorem mul_sum_of_nonneg {ι : Type} (s : Finset ι) (f : ι → EReal) {c : EReal} (h0 : 0 ≤ c) (ht : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The kernel's arrangement is the reference's, on all extended reals, for a factor `0 ≤ c < ⊤`. -/
theorem kernelForm_eq_refForm (z c : EReal) (h0 : 0 ≤ c) (ht : c ≠ ⊤) (x : Mat B D) (w bt : Mat D D) (ot : Mat D 1)
    (mo : Mat O D) (b : Fin B) (o : Fin O) : kernelForm z c x w bt ot mo b o = refForm z c x w bt ot mo b o := by
  unfold kernelForm refForm
  rw [mul_sum_of_nonneg _ _ h0 ht]
  have e : ∀ d : Fin D, c * (mm x bt b d * mo (ix2 o d)) = (c * mm x bt b d) * mo (ix2 o d) := fun d => (mul_assoc _ _ _).symm
  simp only [e]
  abel

/-- The float word of `2.0` denotes the real `2`. -/
theorem ofBits_two : Ideal.ofBits .f32 0x40000000#32 = ((2 : ℝ) : EReal) := by
  simp [Ideal.ofBits, Ideal.ieee, -EReal.coe_mul]; norm_num

theorem two_nonneg : (0 : EReal) ≤ Ideal.ofBits .f32 0x40000000#32 := by
  rw [ofBits_two]; exact_mod_cast (by norm_num : (0 : ℝ) ≤ 2)

theorem two_ne_top : Ideal.ofBits .f32 0x40000000#32 ≠ (⊤ : EReal) := by
  rw [ofBits_two]; exact EReal.coe_ne_top _

end Cert.Spec

end
-- ==== Proof.RefValue.lean ====
/-
  The reference, read at an index. Its last stage at (b, o) is the sum, in the order the reference adds them, of
    • the quadratic form of row b of x through `within`, and of row o of `models` through `within`
      (each a product x·within resp. models·within, multiplied entrywise by the row and summed from the start value 0.0),
    • the bilinear term ∑_d (2 · (x·between)[b, d]) · models[o, d]  (the factor sits INSIDE the sum: the reference
      scales x·between before it contracts with the transposed `models`),
    • row b of x against `other`, and row o of `models` against `other`.
  Every stage below is the generated read-at-an-index lemma of that operation, with its composed index maps identified
  with the plain coordinates (b, d), (d, o), (o, 0) … of the entries it touches.
-/
import proofs.«109604_j26637387170454_1_alg».proof.Proof.Gen.ReferenceIdeal.Read
import proofs.«109604_j26637387170454_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Spec

/-- Two indices with the same coordinates, axis by axis. -/
local macro "idx_eq" : tactic =>
  `(tactic| exact funext fun a => Fin.ext (by first
      | (match a with | ⟨0, _⟩ => rfl | ⟨1, _⟩ => rfl)
      | (match a with | ⟨0, _⟩ => rfl)))

/-- The start value of the two row sums: the word of 0.0. -/
abbrev z0 : EReal := Ideal.ofBits .f32 0x00000000#32
/-- The factor of the bilinear term: the word of 2.0. -/
abbrev c2 : EReal := Ideal.ofBits .f32 0x40000000#32

variable (x0 : (⟨S8192x1024, .f32⟩ : BufTy).Contents (Elt Ideal)) (x1 x2 : (⟨S1024x1024, .f32⟩ : BufTy).Contents (Elt Ideal))
  (x3 : (⟨S1024x1, .f32⟩ : BufTy).Contents (Elt Ideal)) (x4 : (⟨S4096x1024, .f32⟩ : BufTy).Contents (Elt Ideal))

/-- x·within at (b, d). -/
theorem v0_at (b : Fin 8192) (d : Fin 1024) : val_main_v0 (F := Ideal) x0 x1 (ix2 b d) = mm x0 x1 b d := by
  rw [val_main_v0_apply]
  refine Finset.sum_congr rfl fun k _ => ?_
  have el : lidx_main_v0 (ix2 b d) k = ix2 b k := by idx_eq
  have er : ridx_main_v0 (ix2 b d) k = ix2 k d := by idx_eq
  rw [el, er]

/-- models·within at (o, d). -/
theorem v3_at (o : Fin 4096) (d : Fin 1024) : val_main_v3 (F := Ideal) x1 x4 (ix2 o d) = mm x4 x1 o d := by
  rw [val_main_v3_apply]
  refine Finset.sum_congr rfl fun k _ => ?_
  have el : lidx_main_v3 (ix2 o d) k = ix2 o k := by idx_eq
  have er : ridx_main_v3 (ix2 o d) k = ix2 k d := by idx_eq
  rw [el, er]

/-- x·between at (b, d). -/
theorem v11_at (b : Fin 8192) (d : Fin 1024) : val_main_v11 (F := Ideal) x0 x2 (ix2 b d) = mm x0 x2 b d := by
  rw [val_main_v11_apply]
  refine Finset.sum_congr rfl fun k _ => ?_
  have el : lidx_main_v11 (ix2 b d) k = ix2 b k := by idx_eq
  have er : ridx_main_v11 (ix2 b d) k = ix2 k d := by idx_eq
  rw [el, er]

/-- The row sum of (x·within) ⊙ x at b: the quadratic form of row b. -/
theorem v2_at (b : Fin 8192) : val_main_v2 (F := Ideal) x0 x1 (ix1 b) = quad z0 x0 x1 b := by
  rw [val_main_v2_apply]
  refine congrArg (z0 + ·) (Finset.sum_congr rfl fun k _ => ?_)
  have e : idx_main_v2 (ix1 b) k = ix2 b k := by idx_eq
  rw [e, val_main_v1_apply, v0_at]
  rfl

/-- The row sum of (models·within) ⊙ models at o: the quadratic form of row o. -/
theorem v5_at (o : Fin 4096) : val_main_v5 (F := Ideal) x1 x4 (ix1 o) = quad z0 x4 x1 o := by
  rw [val_main_v5_apply]
  refine congrArg (z0 + ·) (Finset.sum_congr rfl fun k _ => ?_)
  have e : idx_main_v5 (ix1 o) k = ix2 o k := by idx_eq
  rw [e, val_main_v4_apply, v3_at]
  rfl

/-- Row b of x against `other`. -/
theorem v16_at (b : Fin 8192) : val_main_v16 (F := Ideal) x0 x3 (ix2 b (0 : Fin 1)) = lin x0 x3 b := by
  rw [val_main_v16_apply]
  refine Finset.sum_congr rfl fun k _ => ?_
  have el : lidx_main_v16 (ix2 b (0 : Fin 1)) k = ix2 b k := by idx_eq
  have er : ridx_main_v16 (ix2 b (0 : Fin 1)) k = ix2 k (0 : Fin 1) := by idx_eq
  rw [el, er]

/-- Row o of `models` against `other`. -/
theorem v17_at (o : Fin 4096) : val_main_v17 (F := Ideal) x3 x4 (ix2 o (0 : Fin 1)) = lin x4 x3 o := by
  rw [val_main_v17_apply]
  refine Finset.sum_congr rfl fun k _ => ?_
  have el : lidx_main_v17 (ix2 o (0 : Fin 1)) k = ix2 o k := by idx_eq
  have er : ridx_main_v17 (ix2 o (0 : Fin 1)) k = ix2 k (0 : Fin 1) := by idx_eq
  rw [el, er]

/-- The bilinear term at (b, o): the scaled x·between contracted with the transposed `models`. -/
theorem v15_at (b : Fin 8192) (o : Fin 4096) :
    val_main_v15 (F := Ideal) x0 x2 x4 (ix2 b o) = ∑ d : Fin 1024, (c2 * mm x0 x2 b d) * x4 (ix2 o d) := by
  rw [val_main_v15_apply]
  refine Finset.sum_congr rfl fun k _ => ?_
  have el : lidx_main_v15 (ix2 b o) k = ix2 b k := by idx_eq
  have er : ridx_main_v15 (ix2 b o) k = ix2 k o := by idx_eq
  have et : idx_main_v14 (ix2 k o) = ix2 o k := by idx_eq
  rw [el, er, val_main_v13_apply, val_main_v12_apply, val_main_cst_1_apply, v11_at, val_main_v14_apply, et]
  rfl

/-- THE REFERENCE AT (b, o). -/
theorem ref_at (b : Fin 8192) (o : Fin 4096) :
    val_main_v23 (F := Ideal) x0 x1 x2 x3 x4 (ix2 b o) = refForm z0 c2 x0 x1 x2 x3 x4 b o := by
  have e6 : idx_main_v6 (idx_main_v8 (ix2 b o)) = ix1 b := by idx_eq
  have e7 : idx_main_v7 (idx_main_v9 (ix2 b o)) = ix1 o := by idx_eq
  have e19 : idx_main_v19 (ix2 b o) = ix2 b (0 : Fin 1) := by idx_eq
  have e18 : idx_main_v18 (idx_main_v20 (ix2 b o)) = ix2 o (0 : Fin 1) := by idx_eq
  rw [val_main_v23_apply, val_main_v22_apply, val_main_v10_apply, val_main_v8_apply, val_main_v6_apply, e6,
    val_main_v9_apply, val_main_v7_apply, e7, val_main_v21_apply, val_main_v19_apply, e19, val_main_v20_apply,
    val_main_v18_apply, e18, v2_at, v5_at, v15_at, v16_at, v17_at]
  rfl

end Cert.ReferenceIdeal.RefValue

end
-- ==== Proof.LibMatmulPlain.lean ====
/-
  A plain matrix product read at an entry, at the ideal values, for any extents.

  `DotDims.plain M K N` contracts the second axis of an `[M, K]` operand with the first axis of a `[K, N]` operand (no batch
  axis). `matmul_plain_zero_apply`: the matrix unit's product into a zero accumulator, read at `(r, c)`, is
  `∑ k : Fin K, lhs (r, k) · rhs (k, c)` — the contraction index is its one coordinate, and the operand indices at
  `(r, c)` and `k` are `(r, k)` and `(k, c)`. `matmul_plain_apply` is the same over any accumulator.
  A printed dimension record with the same seven lists is `DotDims.plain` of its extents by `rfl` (the record's last
  field is a proof), so the lemma serves every such `tpu.matmul`.
-/
import Idealize.ShloMosaic.PureOps.Ideal.Laws
import Idealize.ShloMosaic.Lib.ValueIdx

open scoped BigOperators

namespace Idealize.ShloMosaic.ValueIdx

open Idealize.ShloMosaic

/-- The left operand's index of a plain product at output `(r, c)` and contraction coordinate `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k :=
  funext fun a => Fin.ext (by
    match a with
    | ⟨0, _⟩ => rfl
    | ⟨1, _⟩ => exact contrEquiv1_symm_val (DotDims.plain M K N) K rfl rfl k)

/-- The right operand's index of a plain product at output `(r, c)` and contraction coordinate `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c :=
  funext fun a => Fin.ext (by
    match a with
    | ⟨0, _⟩ => exact contrEquiv1_symm_val (DotDims.plain M K N) K rfl rfl k
    | ⟨1, _⟩ => rfl)

/-- A plain matrix product over an accumulator, read at `(r, c)`: the accumulator's entry plus the row-by-column sum. -/
theorem matmul_plain_apply {M K N : ℕ} {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32) (r : Fin M) (c : Fin N) :
    FloatOps.matmul (DotDims.plain M K N) prec lhs rhs acc (ix2 r c) = acc (ix2 r c) + ∑ k : Fin K, lhs (ix2 r k) * rhs (ix2 k c) := by
  rw [Ideal.matmul_apply, ← Equiv.sum_comp (contrEquiv1 (DotDims.plain M K N) K rfl rfl).symm]
  refine congrArg (acc (ix2 r c) + ·) (Finset.sum_congr rfl fun k _ => ?_)
  rw [plain_lhsIdx, plain_rhsIdx]

/-- A plain matrix product into a zero accumulator, read at `(r, c)`: the row-by-column sum. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  rw [plain_lhsIdx, plain_rhsIdx]

end Idealize.ShloMosaic.ValueIdx
-- ==== Proof.LibKeepdims.lean ====
/-
  The column forms of a row reduction kept as a unit axis (`jnp.sum(x, axis=-1, keepdims=True)` inside a kernel), read
  at an index written with `ValueIdx.ix1` / `ix2`, for any extents `a`, `b`:

  • `shapeCast_a_a1_apply`: an `[a]` vector cast to the column `[a, 1]` reads, at `(p, u)`, the vector at `p`;
  • `broadcastTo_a1_ab_apply`: a column `[a, 1]` broadcast along the rows to `[a, b]` reads, at `(p, q)`, the column at
    `(p, 0)`;
  • `multiReduction_add_rows`: at the ideal values the lane sum of an `[a, b]` vector over its second axis, read at `p`,
    is `∑ k : Fin b, v (p, k)` (the accumulator is the neutral zero, which the sum drops).

  Together: a kernel's `x / (√(∑ x², keepdims) + ε)` at `(p, q)` mentions row `p` of `x` only.
-/
import Idealize.ShloMosaic.Lib.Pipeline.Value
import Idealize.ShloMosaic.Lib.ValueIdx
import Idealize.ShloMosaic.PureOps.Ideal.Laws

open scoped BigOperators

namespace Idealize.ShloMosaic.ValueIdx

open Idealize.ShloMosaic

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At the ideal values the lane sum of an `[a, b]` vector over its second axis, read at row `p`, is the sum of the row. -/
theorem multiReduction_add_rows {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx
-- ==== Proof.Payloads.lean ====
/-
  What each kernel body stores, read at one entry, at the ideal values (where a change of float format is the identity).

  • The two tiled products store, at (p, j) of the output block, ∑ₖ a[p, k] · w[k, j]: row p of the row block against
    column j of the resident right operand.
  • The assembly kernel stores, at (p, q), (2 · ∑_d a[p, d] · mo[q, d] + rb[p, 0]) + cb[0, q]: the product of the row
    block with the TRANSPOSED block of `models` rows, scaled, plus the row's bias (a column broadcast along the row)
    and the column's bias (a row broadcast down the column).
-/
import proofs.«109604_j26637387170454_1_alg».proof.Proof.Gen.KernelIdeal.Skeleton
import proofs.«109604_j26637387170454_1_alg».proof.Proof.LibMatmulPlain
import proofs.«109604_j26637387170454_1_alg».proof.Proof.LibKeepdims
import Idealize.ShloMosaic.Lib.Pipeline.Value
import Idealize.ShloMosaic.Lib.ValueLayout

noncomputable section

open scoped BigOperators

namespace Cert.KernelIdeal.Payload

open Cert.KernelIdeal Cert.KernelIdeal.Gen
open Idealize.ShloMosaic Idealize.ShloMosaic.TcCoe Idealize.ShloMosaic.ValueIdx

/-- The printed dimension records of the three products are plain products of their extents. -/
theorem dims0 : dot_S512x1024_S1024x2048_S512x2048_1_0_0_1_n_n = DotDims.plain 512 1024 2048 := rfl
theorem dims1 : dot_S512x1024_S1024x1024_S512x1024_1_0_0_1_n_n = DotDims.plain 512 1024 1024 := rfl
theorem dims2 : dot_S1024x1024_S1024x512_S1024x512_1_0_0_1_n_n = DotDims.plain 1024 1024 512 := rfl

/-- The first tiled product's store at (p, j): row p of the x block against column j of [within | between]. -/
theorem pay0_at (a : Vec Ideal S512x1024 .f32) (w : Vec Ideal S1024x2048 .f32) (p : Fin 512) (j : Fin 2048) :
    k0_pay1 (F := Ideal) a w (ix2 p j) = ∑ k : Fin 1024, a (ix2 p k) * w (ix2 k j) := by
  unfold k0_pay1
  rw [shapeCast_self, dims0]
  exact matmul_plain_zero_apply none _ _ p j

/-- The second tiled product's store at (p, d): row p of the `models` block against column d of `within`. -/
theorem pay1_at (a : Vec Ideal S512x1024 .f32) (w : Vec Ideal S1024x1024 .f32) (p : Fin 512) (d : Fin 1024) :
    k1_pay1 (F := Ideal) a w (ix2 p d) = ∑ k : Fin 1024, a (ix2 p k) * w (ix2 k d) := by
  unfold k1_pay1
  rw [dims1]
  exact matmul_plain_zero_apply none _ _ p d

/-- The assembly kernel's store at (p, q). -/
theorem pay2_at (a : Vec Ideal S1024x1024 .f32) (mo : Vec Ideal S512x1024 .f32) (rb : Vec Ideal S1024x1 .f32)
    (cb : Vec Ideal S1x512 .f32) (p : Fin 1024) (q : Fin 512) :
    k2_pay1 (F := Ideal) a mo rb cb (ix2 p q)
      = (Ideal.ofBits .f32 0x40000000#32 * (∑ d : Fin 1024, a (ix2 p d) * mo (ix2 q d)) + rb (ix2 p (0 : Fin 1)))
        + cb (ix2 (0 : Fin 1) q) := by
  unfold k2_pay1
  dsimp only
  simp only [shapeCast_self]
  rw [dims2, addf_apply, addf_apply, mulf_apply, broadcast_apply, broadcastTo_a1_ab_apply, broadcastTo_1b_ab_apply]
  refine congrArg (fun s => (Ideal.ofBits .f32 0x40000000#32 * s + rb (ix2 p (0 : Fin 1))) + cb (ix2 (0 : Fin 1) q)) ?_
  refine (matmul_plain_zero_apply none _ _ p q).trans (Finset.sum_congr rfl fun d _ => ?_)
  rw [transpose_ix2_apply]
  rfl

end Cert.KernelIdeal.Payload

end
-- ==== Proof.Region0.lean ====
/-
  The first tiled product as ONE function of the arrays the region finds.

  The grid has 16 points; point t reads rows 512·t … 512·t + 511 of the left array (all 1024 columns), the whole right
  array [1024, 2048], and writes rows 512·t … 512·t + 511 of the output [8192, 2048]. What it writes at local (p, j) is
  ∑ₖ left[512·t + p, k] · right[k, j], which is entry (512·t + p, j) of the whole product left·right. The 16 row
  blocks tile the output, so after the region the output array IS left·right, entry by entry.
-/
import proofs.«109604_j26637387170454_1_alg».proof.Proof.Gen.KernelIdeal.Frame
import proofs.«109604_j26637387170454_1_alg».proof.Proof.Payloads
import proofs.«109604_j26637387170454_1_alg».proof.Proof.Spec

set_option maxRecDepth 16384

noncomputable section

open scoped BigOperators

namespace Cert.KernelIdeal.Region0

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole product: entry (r, j) is row r of `a` against column j of `w`. -/
def prod (a : Vec Ideal S8192x1024 .f32) (w : Vec Ideal S1024x2048 .f32) : Vec Ideal S8192x2048 .f32 :=
  fun i => Spec.mm a w ⟨(i 0).val, (i 0).isLt⟩ ⟨(i 1).val, (i 1).isLt⟩

/-- The printed index maps over the grid: the left block and the output block sit at the same row block, every other
    block index is 0. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 15 :=
  (by decide +kernel : ∀ t : Fin grid0.N, _)

/-- Every row block of the output is some point's. -/
theorem idx_onto : ∀ q0 : Fin 16, ∃ t : Fin cfg0.N, win0_2.index t = ![q0.val, 0] :=
  (by decide +kernel : ∀ q0 : Fin 16, ∃ t : Fin grid0.N, win0_2.index t = ![q0.val, 0])

/-- What point `t` writes back is block `t` of the whole product of the arrays as the region finds them. -/
theorem flushed_eq (c : Dev nD) (t : Fin cfg0.N) :
    (dat0 V c).flushed 2 t = ((cfg0.win 2).blk t).view.read (Elt Ideal) (prod (V c main_arg0) (V c main_v0)) := by
  show (cfg0.win 2).cut (grid0.coords t) ((dat0 V c).after 2 t) = _
  rw [after0_2]
  unfold out0_2
  rw [View.canon_unit_zero hz]
  simp only [View.ld_unit_zero (S := S512x1024) hz, View.ld_unit_zero (S := S1024x2048) hz]
  obtain ⟨e0, e1, e2, e3, e4, e5⟩ := idx_facts t
  funext j
  obtain ⟨p, q, rfl⟩ : ∃ (p : Fin 512) (q : Fin 2048), j = ix2 p q := ⟨j 0, j 1, eq_ix2 j⟩
  show k0_pay1 (F := Ideal) (iblk0 V c 0 t) (iblk0 V c 1 t) (ix2 p q)
    = prod (V c main_arg0) (V c main_v0) (((cfg0.win 2).blk t).view.emb (ix2 p q))
  refine (pay0_at _ _ p q).trans ?_
  change _ = Spec.mm (V c main_arg0) (V c main_v0) _ _
  unfold Spec.mm
  refine Finset.sum_congr rfl fun k _ => ?_
  have hp : p.val < 512 := p.isLt
  have hq : q.val < 2048 := q.isLt
  have hk : k.val < 1024 := k.isLt
  have ha : iblk0 V c 0 t (ix2 p k) = V c main_arg0 (ix2 ⟨(((cfg0.win 2).blk t).view.emb (ix2 p q) 0).val, (((cfg0.win 2).blk t).view.emb (ix2 p q) 0).isLt⟩ k) := by
    show V c main_arg0 (((cfg0.win 0).blk t).view.emb (ix2 p k)) = _
    refine congrArg (V c main_arg0) (funext fun a => Fin.ext ?_)
    match a with
    | ⟨0, _⟩ => show win0_0.index t (0 : Fin 2) * 512 + 1 * p.val = win0_2.index t (0 : Fin 2) * 512 + 1 * p.val; omega
    | ⟨1, _⟩ => show win0_0.index t (1 : Fin 2) * 1024 + 1 * k.val = k.val; omega
  have hw : iblk0 V c 1 t (ix2 k q) = V c main_v0 (ix2 k ⟨(((cfg0.win 2).blk t).view.emb (ix2 p q) 1).val, (((cfg0.win 2).blk t).view.emb (ix2 p q) 1).isLt⟩) := by
    show V c main_v0 (((cfg0.win 1).blk t).view.emb (ix2 k q)) = _
    refine congrArg (V c main_v0) (funext fun a => Fin.ext ?_)
    match a with
    | ⟨0, _⟩ => show win0_1.index t (0 : Fin 2) * 1024 + 1 * k.val = k.val; omega
    | ⟨1, _⟩ => show win0_1.index t (1 : Fin 2) * 2048 + 1 * q.val = win0_2.index t (1 : Fin 2) * 2048 + 1 * q.val; omega
  rw [ha, hw]

/-- An index of the output is in point `t`'s block iff each coordinate is in the block's range on its axis. -/
theorem mem_blk (t : Fin cfg0.N) (i : S8192x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v1).slice (win0_2.rect t)).set ↔ _
  rw [View.set_slice_whole, Rect.mem_set_unit]
  exact Iff.rfl

/-- The row blocks tile the output: row r lies in the block of point r / 512. -/
theorem cover (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- THE OUTPUT ARRAY after the region: the whole product of the left array and the right array as the region found them. -/
theorem final (c : Dev nD) : (dat0 V c).arrAt 2 cfg0.N = prod (V c main_arg0) (V c main_v0) :=
  (dat0 V c).arrAt_eq_of_cover 2 (prod (V c main_arg0) (V c main_v0)) (fun t _ => flushed_eq V c t) cover

end Cert.KernelIdeal.Region0

end
-- ==== Proof.Region1.lean ====
/-
  The second tiled product as ONE function of the arrays the region finds.

  The grid has 8 points; point t reads rows 512·t … 512·t + 511 of the left array [4096, 1024], the whole right array
  [1024, 1024], and writes rows 512·t … 512·t + 511 of the output [4096, 1024]: at local (p, d),
  ∑ₖ left[512·t + p, k] · right[k, d]. The 8 row blocks tile the output, so after the region the output array is the
  whole product left·right, entry by entry.
-/
import proofs.«109604_j26637387170454_1_alg».proof.Proof.Gen.KernelIdeal.Frame
import proofs.«109604_j26637387170454_1_alg».proof.Proof.Payloads
import proofs.«109604_j26637387170454_1_alg».proof.Proof.Spec

set_option maxRecDepth 16384

noncomputable section

open scoped BigOperators

namespace Cert.KernelIdeal.Region1

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole product: entry (r, d) is row r of `a` against column d of `w`. -/
def prod (a : Vec Ideal S4096x1024 .f32) (w : Vec Ideal S1024x1024 .f32) : Vec Ideal S4096x1024 .f32 :=
  fun i => Spec.mm a w ⟨(i 0).val, (i 0).isLt⟩ ⟨(i 1).val, (i 1).isLt⟩

/-- The printed index maps over the grid: the left block and the output block sit at the same row block, every other
    block index is 0. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 7 :=
  (by decide +kernel : ∀ t : Fin grid1.N, _)

/-- Every row block of the output is some point's. -/
theorem idx_onto : ∀ q0 : Fin 8, ∃ t : Fin cfg1.N, win1_2.index t = ![q0.val, 0] :=
  (by decide +kernel : ∀ q0 : Fin 8, ∃ t : Fin grid1.N, win1_2.index t = ![q0.val, 0])

/-- What point `t` writes back is block `t` of the whole product of the arrays as the region finds them. -/
theorem flushed_eq (c : Dev nD) (t : Fin cfg1.N) :
    (dat1 V c).flushed 2 t = ((cfg1.win 2).blk t).view.read (Elt Ideal) (prod (V c main_arg4) (V c main_arg1)) := by
  show (cfg1.win 2).cut (grid1.coords t) ((dat1 V c).after 2 t) = _
  rw [after1_2]
  unfold out1_2
  rw [View.canon_unit_zero hz]
  simp only [View.ld_unit_zero (S := S512x1024) hz, View.ld_unit_zero (S := S1024x1024) hz]
  obtain ⟨e0, e1, e2, e3, e4, e5⟩ := idx_facts t
  funext j
  obtain ⟨p, q, rfl⟩ : ∃ (p : Fin 512) (q : Fin 1024), j = ix2 p q := ⟨j 0, j 1, eq_ix2 j⟩
  show k1_pay1 (F := Ideal) (iblk1 V c 0 t) (iblk1 V c 1 t) (ix2 p q)
    = prod (V c main_arg4) (V c main_arg1) (((cfg1.win 2).blk t).view.emb (ix2 p q))
  refine (pay1_at _ _ p q).trans ?_
  change _ = Spec.mm (V c main_arg4) (V c main_arg1) _ _
  unfold Spec.mm
  refine Finset.sum_congr rfl fun k _ => ?_
  have hp : p.val < 512 := p.isLt
  have hq : q.val < 1024 := q.isLt
  have hk : k.val < 1024 := k.isLt
  have ha : iblk1 V c 0 t (ix2 p k) = V c main_arg4 (ix2 ⟨(((cfg1.win 2).blk t).view.emb (ix2 p q) 0).val, (((cfg1.win 2).blk t).view.emb (ix2 p q) 0).isLt⟩ k) := by
    show V c main_arg4 (((cfg1.win 0).blk t).view.emb (ix2 p k)) = _
    refine congrArg (V c main_arg4) (funext fun a => Fin.ext ?_)
    match a with
    | ⟨0, _⟩ => show win1_0.index t (0 : Fin 2) * 512 + 1 * p.val = win1_2.index t (0 : Fin 2) * 512 + 1 * p.val; omega
    | ⟨1, _⟩ => show win1_0.index t (1 : Fin 2) * 1024 + 1 * k.val = k.val; omega
  have hw : iblk1 V c 1 t (ix2 k q) = V c main_arg1 (ix2 k ⟨(((cfg1.win 2).blk t).view.emb (ix2 p q) 1).val, (((cfg1.win 2).blk t).view.emb (ix2 p q) 1).isLt⟩) := by
    show V c main_arg1 (((cfg1.win 1).blk t).view.emb (ix2 k q)) = _
    refine congrArg (V c main_arg1) (funext fun a => Fin.ext ?_)
    match a with
    | ⟨0, _⟩ => show win1_1.index t (0 : Fin 2) * 1024 + 1 * k.val = k.val; omega
    | ⟨1, _⟩ => show win1_1.index t (1 : Fin 2) * 1024 + 1 * q.val = win1_2.index t (1 : Fin 2) * 1024 + 1 * q.val; omega
  rw [ha, hw]

/-- An index of the output is in point `t`'s block iff each coordinate is in the block's range on its axis. -/
theorem mem_blk (t : Fin cfg1.N) (i : S4096x1024.Idx) :
    i ∈ ((cfg1.win 2).blk t).view.set ↔ ∀ a : Fin 2, win1_2.index t a * S512x1024.size a ≤ (i a).val ∧ (i a).val < win1_2.index t a * S512x1024.size a + S512x1024.size a := by
  show i ∈ ((View.whole main_v4).slice (win1_2.rect t)).set ↔ _
  rw [View.set_slice_whole, Rect.mem_set_unit]
  exact Iff.rfl

/-- The row blocks tile the output: row r lies in the block of point r / 512. -/
theorem cover (i : S4096x1024.Idx) : ∃ t : Fin cfg1.N, (cfg1.win 2).flush t = true ∧ i ∈ ((cfg1.win 2).blk t).view.set := by
  have hi0 : (i 0).val < 4096 := (i 0).isLt
  have hi1 : (i 1).val < 1024 := (i 1).isLt
  obtain ⟨t, ht⟩ := idx_onto ⟨(i 0).val / 512, by omega⟩
  have q0 : win1_2.index t (0 : Fin 2) = (i 0).val / 512 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 1024 ≤ (i 1).val ∧ (i 1).val < win1_2.index t (1 : Fin 2) * 1024 + 1024; omega

/-- THE OUTPUT ARRAY after the region: the whole product of the left array and the right array as the region found them. -/
theorem final (c : Dev nD) : (dat1 V c).arrAt 2 cfg1.N = prod (V c main_arg4) (V c main_arg1) :=
  (dat1 V c).arrAt_eq_of_cover 2 (prod (V c main_arg4) (V c main_arg1)) (fun t _ => flushed_eq V c t) cover

end Cert.KernelIdeal.Region1

end
-- ==== Proof.Region2.lean ====
/-
  The assembly kernel as ONE function of the arrays the region finds.

  The grid is 8 × 8; point (i, j) reads rows 1024·i … of the left array [8192, 1024], rows 512·j … of `models`
  [4096, 1024], rows 1024·i … of the row-bias column [8192, 1], columns 512·j … of the column-bias row [1, 4096], and
  writes block (i, j) — 1024 × 512 — of the output [8192, 4096]. At local (p, q) it writes
    (2 · ∑_d left[1024·i + p, d] · models[512·j + q, d] + rowbias[1024·i + p, 0]) + colbias[0, 512·j + q],
  which is the value at (1024·i + p, 512·j + q) of the one function `asm` below. The 64 blocks tile the output, so after
  the region the output array is `asm` of the four arrays, entry by entry.
-/
import proofs.«109604_j26637387170454_1_alg».proof.Proof.Gen.KernelIdeal.Frame
import proofs.«109604_j26637387170454_1_alg».proof.Proof.Payloads
import proofs.«109604_j26637387170454_1_alg».proof.Proof.Spec

set_option maxRecDepth 16384

noncomputable section

open scoped BigOperators

namespace Cert.KernelIdeal.Region2

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The assembled entry at (r, o) from explicit coordinates. -/
def asmAt (a : Vec Ideal S8192x1024 .f32) (mo : Vec Ideal S4096x1024 .f32) (rb : Vec Ideal S8192x1 .f32)
    (cb : Vec Ideal S1x4096 .f32) (r : Fin 8192) (o : Fin 4096) : EReal :=
  (Ideal.ofBits .f32 0x40000000#32 * (∑ d : Fin 1024, a (ix2 r d) * mo (ix2 o d)) + rb (ix2 r (0 : Fin 1)))
    + cb (ix2 (0 : Fin 1) o)

/-- The assembled array. -/
def asm (a : Vec Ideal S8192x1024 .f32) (mo : Vec Ideal S4096x1024 .f32) (rb : Vec Ideal S8192x1 .f32)
    (cb : Vec Ideal S1x4096 .f32) : Vec Ideal S8192x4096 .f32 :=
  fun i => asmAt a mo rb cb ⟨(i 0).val, (i 0).isLt⟩ ⟨(i 1).val, (i 1).isLt⟩

/-- The printed index maps over the grid: the left block and the row bias sit at the output's row block, the
    `models` block and the column bias at the output's column block, every other block index is 0. -/
theorem idx_facts : ∀ t : Fin cfg2.N, win2_0.index t (0 : Fin 2) = win2_4.index t (0 : Fin 2)
    ∧ win2_0.index t (1 : Fin 2) = 0
    ∧ win2_1.index t (0 : Fin 2) = win2_4.index t (1 : Fin 2) ∧ win2_1.index t (1 : Fin 2) = 0
    ∧ win2_2.index t (0 : Fin 2) = win2_4.index t (0 : Fin 2) ∧ win2_2.index t (1 : Fin 2) = 0
    ∧ win2_3.index t (0 : Fin 2) = 0 ∧ win2_3.index t (1 : Fin 2) = win2_4.index t (1 : Fin 2)
    ∧ win2_4.index t (0 : Fin 2) ≤ 7 ∧ win2_4.index t (1 : Fin 2) ≤ 7 :=
  (by decide +kernel : ∀ t : Fin grid2.N, _)

/-- Every block of the output is some point's. -/
theorem idx_onto : ∀ (q0 : Fin 8) (q1 : Fin 8), ∃ t : Fin cfg2.N, win2_4.index t = ![q0.val, q1.val] :=
  (by decide +kernel : ∀ (q0 : Fin 8) (q1 : Fin 8), ∃ t : Fin grid2.N, win2_4.index t = ![q0.val, q1.val])

/-- What point `t` writes back is block `t` of `asm` of the arrays as the region finds them. -/
theorem flushed_eq (c : Dev nD) (t : Fin cfg2.N) :
    (dat2 V c).flushed 4 t = ((cfg2.win 4).blk t).view.read (Elt Ideal)
      (asm (V c main_v3) (V c main_arg4) (V c main_v13) (V c main_v15)) := by
  show (cfg2.win 4).cut (grid2.coords t) ((dat2 V c).after 4 t) = _
  rw [after2_4]
  unfold out2_4
  rw [View.canon_unit_zero hz]
  simp only [View.ld_unit_zero (S := S1024x1024) hz, View.ld_unit_zero (S := S512x1024) hz,
    View.ld_unit_zero (S := S1024x1) hz, View.ld_unit_zero (S := S1x512) hz]
  obtain ⟨e0, e1, e2, e3, e4, e5, e6, e7, e8, e9⟩ := idx_facts t
  funext j
  obtain ⟨p, q, rfl⟩ : ∃ (p : Fin 1024) (q : Fin 512), j = ix2 p q := ⟨j 0, j 1, eq_ix2 j⟩
  show k2_pay1 (F := Ideal) (iblk2 V c 0 t) (iblk2 V c 1 t) (iblk2 V c 2 t) (iblk2 V c 3 t) (ix2 p q)
    = asm (V c main_v3) (V c main_arg4) (V c main_v13) (V c main_v15) (((cfg2.win 4).blk t).view.emb (ix2 p q))
  refine (pay2_at _ _ _ _ p q).trans ?_
  change _ = asmAt (V c main_v3) (V c main_arg4) (V c main_v13) (V c main_v15) _ _
  unfold asmAt
  have hp : p.val < 1024 := p.isLt
  have hq : q.val < 512 := q.isLt
  have ha : ∀ d : Fin 1024, iblk2 V c 0 t (ix2 p d) = V c main_v3 (ix2 ⟨(((cfg2.win 4).blk t).view.emb (ix2 p q) 0).val, (((cfg2.win 4).blk t).view.emb (ix2 p q) 0).isLt⟩ d) := by
    intro d
    have hd : d.val < 1024 := d.isLt
    show V c main_v3 (((cfg2.win 0).blk t).view.emb (ix2 p d)) = _
    refine congrArg (V c main_v3) (funext fun a => Fin.ext ?_)
    match a with
    | ⟨0, _⟩ => show win2_0.index t (0 : Fin 2) * 1024 + 1 * p.val = win2_4.index t (0 : Fin 2) * 1024 + 1 * p.val; omega
    | ⟨1, _⟩ => show win2_0.index t (1 : Fin 2) * 1024 + 1 * d.val = d.val; omega
  have hm : ∀ d : Fin 1024, iblk2 V c 1 t (ix2 q d) = V c main_arg4 (ix2 ⟨(((cfg2.win 4).blk t).view.emb (ix2 p q) 1).val, (((cfg2.win 4).blk t).view.emb (ix2 p q) 1).isLt⟩ d) := by
    intro d
    have hd : d.val < 1024 := d.isLt
    show V c main_arg4 (((cfg2.win 1).blk t).view.emb (ix2 q d)) = _
    refine congrArg (V c main_arg4) (funext fun a => Fin.ext ?_)
    match a with
    | ⟨0, _⟩ => show win2_1.index t (0 : Fin 2) * 512 + 1 * q.val = win2_4.index t (1 : Fin 2) * 512 + 1 * q.val; omega
    | ⟨1, _⟩ => show win2_1.index t (1 : Fin 2) * 1024 + 1 * d.val = d.val; omega
  have hr : iblk2 V c 2 t (ix2 p (0 : Fin 1)) = V c main_v13 (ix2 ⟨(((cfg2.win 4).blk t).view.emb (ix2 p q) 0).val, (((cfg2.win 4).blk t).view.emb (ix2 p q) 0).isLt⟩ (0 : Fin 1)) := by
    show V c main_v13 (((cfg2.win 2).blk t).view.emb (ix2 p (0 : Fin 1))) = _
    refine congrArg (V c main_v13) (funext fun a => Fin.ext ?_)
    match a with
    | ⟨0, _⟩ => show win2_2.index t (0 : Fin 2) * 1024 + 1 * p.val = win2_4.index t (0 : Fin 2) * 1024 + 1 * p.val; omega
    | ⟨1, _⟩ => show win2_2.index t (1 : Fin 2) * 1 + 1 * 0 = 0; omega
  have hc : iblk2 V c 3 t (ix2 (0 : Fin 1) q) = V c main_v15 (ix2 (0 : Fin 1) ⟨(((cfg2.win 4).blk t).view.emb (ix2 p q) 1).val, (((cfg2.win 4).blk t).view.emb (ix2 p q) 1).isLt⟩) := by
    show V c main_v15 (((cfg2.win 3).blk t).view.emb (ix2 (0 : Fin 1) q)) = _
    refine congrArg (V c main_v15) (funext fun a => Fin.ext ?_)
    match a with
    | ⟨0, _⟩ => show win2_3.index t (0 : Fin 2) * 1 + 1 * 0 = 0; omega
    | ⟨1, _⟩ => show win2_3.index t (1 : Fin 2) * 512 + 1 * q.val = win2_4.index t (1 : Fin 2) * 512 + 1 * q.val; omega
  rw [hr, hc]
  simp only [ha, hm]

/-- An index of the output is in point `t`'s block iff each coordinate is in the block's range on its axis. -/
theorem mem_blk (t : Fin cfg2.N) (i : S8192x4096.Idx) :
    i ∈ ((cfg2.win 4).blk t).view.set ↔ ∀ a : Fin 2, win2_4.index t a * S1024x512.size a ≤ (i a).val ∧ (i a).val < win2_4.index t a * S1024x512.size a + S1024x512.size a := by
  show i ∈ ((View.whole main_v16).slice (win2_4.rect t)).set ↔ _
  rw [View.set_slice_whole, Rect.mem_set_unit]
  exact Iff.rfl

/-- The blocks tile the output: (r, o) lies in the block of the point with block indices (r / 1024, o / 512). -/
theorem cover (i : S8192x4096.Idx) : ∃ t : Fin cfg2.N, (cfg2.win 4).flush t = true ∧ i ∈ ((cfg2.win 4).blk t).view.set := by
  have hi0 : (i 0).val < 8192 := (i 0).isLt
  have hi1 : (i 1).val < 4096 := (i 1).isLt
  obtain ⟨t, ht⟩ := idx_onto ⟨(i 0).val / 1024, by omega⟩ ⟨(i 1).val / 512, by omega⟩
  have q0 : win2_4.index t (0 : Fin 2) = (i 0).val / 1024 := congrFun ht 0
  have q1 : win2_4.index t (1 : Fin 2) = (i 1).val / 512 := congrFun ht 1
  refine ⟨t, flush2_4 t, ?_⟩
  rw [mem_blk]
  intro a
  match a with
  | ⟨0, _⟩ => show win2_4.index t (0 : Fin 2) * 1024 ≤ (i 0).val ∧ (i 0).val < win2_4.index t (0 : Fin 2) * 1024 + 1024; omega
  | ⟨1, _⟩ => show win2_4.index t (1 : Fin 2) * 512 ≤ (i 1).val ∧ (i 1).val < win2_4.index t (1 : Fin 2) * 512 + 512; omega

/-- THE OUTPUT ARRAY after the region: `asm` of the four arrays as the region found them. -/
theorem final (c : Dev nD) :
    (dat2 V c).arrAt 4 cfg2.N = asm (V c main_v3) (V c main_arg4) (V c main_v13) (V c main_v15) :=
  (dat2 V c).arrAt_eq_of_cover 4 (asm (V c main_v3) (V c main_arg4) (V c main_v13) (V c main_v15))
    (fun t _ => flushed_eq V c t) cover

end Cert.KernelIdeal.Region2

end
-- ==== Proof.LibHostRows.lean ====
/-
  Host operations around a row reduction, read at an entry at the ideal values, for any extents `a`, `b`:

  • `hostReduceAdd_rows`: the host's sum of an `[a, b]` array over its second axis, read at row `p`, is the start value
    plus `∑ k : Fin b, x (p, k)`;
  • `broadcastInDim_a_a1_apply`: an `[a]` array placed as the column `[a, 1]` reads, at `(p, u)`, the array at `p`;
  • `shapeCast_a1_1a_apply`: a column `[a, 1]` reshaped to the row `[1, a]` reads, at `(u, p)`, the column at `(p, 0)`;
  • `hostDotGeneral_plain_apply`: the host's plain product `[M, K] × [K, N]` read at `(r, c)` is the row-by-column sum.
-/
import proofs.«109604_j26637387170454_1_alg».proof.Proof.LibMatmulPlain
import Idealize.ShloMosaic.Lib.Pipeline.Value

open scoped BigOperators

namespace Idealize.ShloMosaic.ValueIdx

open Idealize.ShloMosaic

variable {α : Type}

/-- The host's row sums of an `[a, b]` array: at row `p`, the start value plus the sum of the row. -/
theorem hostReduceAdd_rows {a b : ℕ} {φ : FTy} {u : Shape} (x : FVec Ideal ⟨2, ![a, b]⟩ φ) (init : u.Idx → Ideal φ)
    (h : (⟨2, ![a, b]⟩ : Shape).ReducesTo [1] ⟨1, ![a]⟩) (hu : 0 < u.numel)
    (hr : (⟨2, ![a, b]⟩ : Shape).Reduces [1] ⟨1, ![a]⟩) (p : Fin a) :
    Host.reduceAdd x init h hu (ix1 p) = init (Shape.Idx.first hu) + ∑ k : Fin b, x (ix2 p k) := by
  simp only [Host.reduceAdd, Ideal.hostReduceAdd_def]
  rw [Ideal.hostReduceAdd_single h hr]
  refine congrArg (_ + ·) (Finset.sum_congr rfl fun k _ => ?_)
  exact congrArg x (funext fun ax => Fin.ext (by
    match ax with
    | ⟨0, _⟩ => rfl
    | ⟨1, _⟩ => rfl))

/-- An `[a]` array placed as the column `[a, 1]` reads, at `(p, u)`, the array at `p`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column `[a, 1]` reshaped to the row `[1, a]` reads, at `(u, p)`, the column's entry of row `p`. -/
theorem shapeCast_a1_1a_apply {a : ℕ} (x : (⟨2, ![a, 1]⟩ : Shape).Idx → α) (h : (⟨2, ![a, 1]⟩ : Shape).ShapeCasts ⟨2, ![1, a]⟩)
    (u : Fin 1) (p : Fin a) : shapeCast ⟨2, ![1, a]⟩ x h (ix2 u p) = x (ix2 p (0 : Fin 1)) :=
  shapeCast_apply x h _ _ (by
    have hu : u.val = 0 := by omega
    rw [Shape.rowMajor_val_two, Shape.rowMajor_val_two]
    show p.val * 1 + 0 = u.val * a + p.val
    rw [hu, Nat.zero_mul, Nat.zero_add, Nat.mul_one, Nat.add_zero])

/-- The host's plain product read at `(r, c)`: the row-by-column sum. -/
theorem hostDotGeneral_plain_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [plain_lhsIdx, plain_rhsIdx]

end Idealize.ShloMosaic.ValueIdx
-- ==== Proof.HostGlue.lean ====
/-
  The host operations of the kernel's @main, as named functions of whole arrays, each read at an entry at the ideal
  values.

    catW a b          = [a | b], the two [1024, 1024] arrays side by side: column j < 1024 is a's, column 1024 + d is b's d;
    leftHalf v        = columns 0 … 1023 of a [8192, 2048] array;  rightHalf v = columns 1024 … 2047;
    rowBias wx x ot   = the column whose entry b is (0.0 + ∑_d wx[b, d] · x[b, d]) + ∑ₖ x[b, k] · ot[k, 0];
    colBias wm mo ot  = the same column for `models`, reshaped to a row: entry (0, o) is
                        (0.0 + ∑_d wm[o, d] · mo[o, d]) + ∑ₖ mo[o, k] · ot[k, 0].
-/
import proofs.«109604_j26637387170454_1_alg».proof.Proof.Gen.KernelIdeal
import proofs.«109604_j26637387170454_1_alg».proof.Proof.LibHostRows
import Idealize.ShloMosaic.Lib.Pipeline.Value
import Idealize.ShloMosaic.Lib.ValueLayout

noncomputable section

open scoped BigOperators

namespace Cert.KernelIdeal.Glue

open Cert.KernelIdeal Cert.KernelIdeal.Gen
open Idealize.ShloMosaic Idealize.ShloMosaic.TcCoe Idealize.ShloMosaic.ValueIdx

variable {F : FTy → Type} [FloatOps F]

/-- `[a | b]`. -/
def catW (a b : Vec F S1024x1024 .f32) : Vec F S1024x2048 .f32 :=
  concatenate S1024x2048 1 [⟨S1024x1024, a⟩, ⟨S1024x1024, b⟩] concatenates_S1024x1024_S1024x1024_S1024x2048_d1

/-- Columns 0 … 1023. -/
def leftHalf (v : Vec F S8192x2048 .f32) : Vec F S8192x1024 .f32 :=
  extractStridedSlice S8192x1024 ![0, 0] v slices_S8192x2048_S8192x1024_0_0

/-- Columns 1024 … 2047. -/
def rightHalf (v : Vec F S8192x2048 .f32) : Vec F S8192x1024 .f32 :=
  extractStridedSlice S8192x1024 ![0, 1024] v slices_S8192x2048_S8192x1024_0_1024

/-- The row bias: the row sums of `wx ⊙ x` as a column, plus `x` against the column `ot`. -/
def rowBias (wx x : Vec F S8192x1024 .f32) (ot : Vec F S1024x1 .f32) : Vec F S8192x1 .f32 :=
  addf (broadcastInDim S8192x1 (![0] : Fin 1 → Fin S8192x1.rank) bcast_S8192_S8192x1_0
      (Host.reduceAdd (mulf wx x) (constant S_ .f32 0x00000000#32) reducesTo_S8192x1024_S8192_d1 h_S_))
    (Host.dotGeneral dot_S8192x1024_S1024x1_S8192x1_1_0_0_1_n_n none x ot)

/-- The column bias: the same for `models`, laid out as a row. -/
def colBias (wm mo : Vec F S4096x1024 .f32) (ot : Vec F S1024x1 .f32) : Vec F S1x4096 .f32 :=
  shapeCast S1x4096 (addf (broadcastInDim S4096x1 (![0] : Fin 1 → Fin S4096x1.rank) bcast_S4096_S4096x1_0
      (Host.reduceAdd (mulf wm mo) (constant S_ .f32 0x00000000#32) reducesTo_S4096x1024_S4096_d1 h_S_))
    (Host.dotGeneral dot_S4096x1024_S1024x1_S4096x1_1_0_0_1_n_n none mo ot)) shapeCasts_S4096x1_S1x4096

/-- The two host products' dimension records are plain products of their extents. -/
theorem dimsX : dot_S8192x1024_S1024x1_S8192x1_1_0_0_1_n_n = DotDims.plain 8192 1024 1 := rfl
theorem dimsM : dot_S4096x1024_S1024x1_S4096x1_1_0_0_1_n_n = DotDims.plain 4096 1024 1 := rfl

/-- Column `j < 1024` of `[a | b]` is `a`'s. -/
theorem catW_left (a b : Vec Ideal S1024x1024 .f32) (k : Fin 1024) (j : Fin 2048) (d : Fin 1024) (h : j.val = d.val) :
    catW a b (ix2 k j) = a (ix2 k d) := by
  unfold catW
  refine concatenate_pair_apply_left (t := S1024x2048) (s₁ := S1024x1024) (s₂ := S1024x1024) (1 : Fin 2) a b _ (ix2 k j) rfl (ix2 k d) fun ax => ?_
  match ax with
  | ⟨0, _⟩ => rfl
  | ⟨1, _⟩ => exact h.symm

/-- Column `1024 + d` of `[a | b]` is `b`'s column `d`. -/
theorem catW_right (a b : Vec Ideal S1024x1024 .f32) (k : Fin 1024) (j : Fin 2048) (d : Fin 1024) (h : d.val + 1024 = j.val) :
    catW a b (ix2 k j) = b (ix2 k d) := by
  unfold catW
  refine concatenate_pair_apply_right (t := S1024x2048) (s₁ := S1024x1024) (s₂ := S1024x1024) (1 : Fin 2) a b _ (ix2 k j) rfl rfl (ix2 k d) (fun ax hax => ?_) (by show d.val + 1024 = j.val; exact h)
  match ax with
  | ⟨0, _⟩ => rfl
  | ⟨1, _⟩ => exact absurd rfl hax

/-- The left half at `(b, d)` is the array at `(b, d)`. -/
theorem leftHalf_at (v : Vec Ideal S8192x2048 .f32) (b : Fin 8192) (d : Fin 1024) (j : Fin 2048) (h : j.val = d.val) :
    leftHalf v (ix2 b d) = v (ix2 b j) := by
  unfold leftHalf
  exact slice2_axis1_apply 0 v _ b d j (by omega)

/-- The right half at `(b, d)` is the array at `(b, 1024 + d)`. -/
theorem rightHalf_at (v : Vec Ideal S8192x2048 .f32) (b : Fin 8192) (d : Fin 1024) (j : Fin 2048) (h : j.val = 1024 + d.val) :
    rightHalf v (ix2 b d) = v (ix2 b j) := by
  unfold rightHalf
  exact slice2_axis1_apply 1024 v _ b d j h

/-- The row bias at `(b, 0)`. -/
theorem rowBias_at (wx x : Vec Ideal S8192x1024 .f32) (ot : Vec Ideal S1024x1 .f32) (b : Fin 8192) :
    rowBias (F := Ideal) wx x ot (ix2 b (0 : Fin 1))
      = (Ideal.ofBits .f32 0x00000000#32 + ∑ d : Fin 1024, wx (ix2 b d) * x (ix2 b d)) + ∑ k : Fin 1024, x (ix2 b k) * ot (ix2 k (0 : Fin 1)) := by
  unfold rowBias
  rw [addf_apply, broadcastInDim_a_a1_apply, hostReduceAdd_rows _ _ _ _ (by decide), dimsX, hostDotGeneral_plain_apply]
  rfl

/-- The column bias at `(0, o)`. -/
theorem colBias_at (wm mo : Vec Ideal S4096x1024 .f32) (ot : Vec Ideal S1024x1 .f32) (o : Fin 4096) :
    colBias (F := Ideal) wm mo ot (ix2 (0 : Fin 1) o)
      = (Ideal.ofBits .f32 0x00000000#32 + ∑ d : Fin 1024, wm (ix2 o d) * mo (ix2 o d)) + ∑ k : Fin 1024, mo (ix2 o k) * ot (ix2 k (0 : Fin 1)) := by
  unfold colBias
  rw [shapeCast_a1_1a_apply, addf_apply, broadcastInDim_a_a1_apply, hostReduceAdd_rows _ _ _ _ (by decide), dimsM,
    hostDotGeneral_plain_apply]
  rfl

end Cert.KernelIdeal.Glue

end
-- ==== Proof.HostFold.lean ====
/-
  The kernel's result buffer, read through @main's six segments.

  Boundary by boundary (the generated run's `W1 … W6`): the first host stretch builds [within | between]; region 0 leaves
  x · [within | between] in its output; the second stretch takes its two halves (x·within and x·between); region 1
  leaves models·within; the third stretch forms the row bias and the column bias; region 2 assembles the result. No
  segment writes an argument array, so every argument read along the way is the launch contents.
  Read at (b, o), the result is the kernel's arrangement `Spec.kernelForm` of the five argument arrays: the right half
  of x · [within | between] is x·between because column 1024 + d of [within | between] is between's column d, and its
  left half is x·within because column d < 1024 is within's.
-/
import proofs.«109604_j26637387170454_1_alg».proof.Proof.Gen.KernelIdeal.Frame
import proofs.«109604_j26637387170454_1_alg».proof.Proof.Region0
import proofs.«109604_j26637387170454_1_alg».proof.Proof.Region1
import proofs.«109604_j26637387170454_1_alg».proof.Proof.Region2
import proofs.«109604_j26637387170454_1_alg».proof.Proof.HostGlue
import proofs.«109604_j26637387170454_1_alg».proof.Proof.Spec
import Idealize.ShloMosaic.Lib.StableHlo.Run

set_option maxRecDepth 16384

noncomputable section

open scoped BigOperators

namespace Cert.KernelIdeal.Fold

open Cert.KernelIdeal Cert.KernelIdeal.Gen Cert.KernelIdeal.Glue
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- The five argument arrays at launch. -/
abbrev aX (c : Dev nD) : Vec Ideal S8192x1024 .f32 := m ((c : Thread nD τ).loc main_arg0)
abbrev aW (c : Dev nD) : Vec Ideal S1024x1024 .f32 := m ((c : Thread nD τ).loc main_arg1)
abbrev aB (c : Dev nD) : Vec Ideal S1024x1024 .f32 := m ((c : Thread nD τ).loc main_arg2)
abbrev aO (c : Dev nD) : Vec Ideal S1024x1 .f32 := m ((c : Thread nD τ).loc main_arg3)
abbrev aM (c : Dev nD) : Vec Ideal S4096x1024 .f32 := m ((c : Thread nD τ).loc main_arg4)

/-! ## After the first host stretch -/

theorem W1_v0 (c : Dev nD) : W1 m ρ c (Proc.devRef .tc main_v0) = catW (aW m c) (aB m c) := by
  show StableHlo.after hostOps0 (W0 m ρ c) (Proc.devRef .tc main_v0) = _
  after_results
  rfl
theorem W1_arg0 (c : Dev nD) : W1 m ρ c (Proc.devRef .tc main_arg0) = aX m c := by
  show StableHlo.after hostOps0 (W0 m ρ c) (Proc.devRef .tc main_arg0) = _
  after_results
theorem W1_arg1 (c : Dev nD) : W1 m ρ c (Proc.devRef .tc main_arg1) = aW m c := by
  show StableHlo.after hostOps0 (W0 m ρ c) (Proc.devRef .tc main_arg1) = _
  after_results
theorem W1_arg3 (c : Dev nD) : W1 m ρ c (Proc.devRef .tc main_arg3) = aO m c := by
  show StableHlo.after hostOps0 (W0 m ρ c) (Proc.devRef .tc main_arg3) = _
  after_results
theorem W1_arg4 (c : Dev nD) : W1 m ρ c (Proc.devRef .tc main_arg4) = aM m c := by
  show StableHlo.after hostOps0 (W0 m ρ c) (Proc.devRef .tc main_arg4) = _
  after_results

/-! ## After region 0 -/

/-- Region 0's output: x · [within | between]. -/
theorem W2_v1 (c : Dev nD) : W2 m ρ c (Proc.devRef .tc main_v1) = Region0.prod (aX m c) (catW (aW m c) (aB m c)) := by
  refine (W2_arr m ρ c 2).trans ((Region0.final (V1 m ρ) c).trans ?_)
  show Region0.prod (W1 m ρ c (Proc.devRef .tc main_arg0)) (W1 m ρ c (Proc.devRef .tc main_v0)) = _
  rw [W1_arg0, W1_v0]
theorem W2_arg0 (c : Dev nD) : W2 m ρ c (Proc.devRef .tc main_arg0) = aX m c :=
  ((W2_arr m ρ c 0).trans (((dat0 (V1 m ρ) c).arrAt_in 0 rfl _).trans (A_eq0 (V1 m ρ) c 0))).trans (W1_arg0 m ρ c)
theorem W2_arg1 (c : Dev nD) : W2 m ρ c (Proc.devRef .tc main_arg1) = aW m c :=
  (W2_of_ne m ρ c main_arg1 (by decide)).trans (W1_arg1 m ρ c)
theorem W2_arg3 (c : Dev nD) : W2 m ρ c (Proc.devRef .tc main_arg3) = aO m c :=
  (W2_of_ne m ρ c main_arg3 (by decide)).trans (W1_arg3 m ρ c)
theorem W2_arg4 (c : Dev nD) : W2 m ρ c (Proc.devRef .tc main_arg4) = aM m c :=
  (W2_of_ne m ρ c main_arg4 (by decide)).trans (W1_arg4 m ρ c)

/-! ## After the second host stretch -/

theorem W3_v2 (c : Dev nD) : W3 m ρ c (Proc.devRef .tc main_v2) = leftHalf (W2 m ρ c (Proc.devRef .tc main_v1)) := by
  show StableHlo.after hostOps1 (W2 m ρ c) (Proc.devRef .tc main_v2) = _
  after_results
  rfl
theorem W3_v3 (c : Dev nD) : W3 m ρ c (Proc.devRef .tc main_v3) = rightHalf (W2 m ρ c (Proc.devRef .tc main_v1)) := by
  show StableHlo.after hostOps1 (W2 m ρ c) (Proc.devRef .tc main_v3) = _
  after_results
  rfl
theorem W3_arg0 (c : Dev nD) : W3 m ρ c (Proc.devRef .tc main_arg0) = aX m c := by
  refine Eq.trans ?_ (W2_arg0 m ρ c)
  show StableHlo.after hostOps1 (W2 m ρ c) (Proc.devRef .tc main_arg0) = _
  after_results
theorem W3_arg1 (c : Dev nD) : W3 m ρ c (Proc.devRef .tc main_arg1) = aW m c := by
  refine Eq.trans ?_ (W2_arg1 m ρ c)
  show StableHlo.after hostOps1 (W2 m ρ c) (Proc.devRef .tc main_arg1) = _
  after_results
theorem W3_arg3 (c : Dev nD) : W3 m ρ c (Proc.devRef .tc main_arg3) = aO m c := by
  refine Eq.trans ?_ (W2_arg3 m ρ c)
  show StableHlo.after hostOps1 (W2 m ρ c) (Proc.devRef .tc main_arg3) = _
  after_results
theorem W3_arg4 (c : Dev nD) : W3 m ρ c (Proc.devRef .tc main_arg4) = aM m c := by
  refine Eq.trans ?_ (W2_arg4 m ρ c)
  show StableHlo.after hostOps1 (W2 m ρ c) (Proc.devRef .tc main_arg4) = _
  after_results

/-! ## After region 1 -/

/-- Region 1's output: models · within. -/
theorem W4_v4 (c : Dev nD) : W4 m ρ c (Proc.devRef .tc main_v4) = Region1.prod (aM m c) (aW m c) := by
  refine (W4_arr m ρ c 2).trans ((Region1.final (V3 m ρ) c).trans ?_)
  show Region1.prod (W3 m ρ c (Proc.devRef .tc main_arg4)) (W3 m ρ c (Proc.devRef .tc main_arg1)) = _
  rw [W3_arg4, W3_arg1]
theorem W4_v2 (c : Dev nD) : W4 m ρ c (Proc.devRef .tc main_v2) = W3 m ρ c (Proc.devRef .tc main_v2) :=
  W4_of_ne m ρ c main_v2 (by decide)
theorem W4_v3 (c : Dev nD) : W4 m ρ c (Proc.devRef .tc main_v3) = W3 m ρ c (Proc.devRef .tc main_v3) :=
  W4_of_ne m ρ c main_v3 (by decide)
theorem W4_arg0 (c : Dev nD) : W4 m ρ c (Proc.devRef .tc main_arg0) = aX m c :=
  (W4_of_ne m ρ c main_arg0 (by decide)).trans (W3_arg0 m ρ c)
theorem W4_arg3 (c : Dev nD) : W4 m ρ c (Proc.devRef .tc main_arg3) = aO m c :=
  (W4_of_ne m ρ c main_arg3 (by decide)).trans (W3_arg3 m ρ c)
theorem W4_arg4 (c : Dev nD) : W4 m ρ c (Proc.devRef .tc main_arg4) = aM m c :=
  ((W4_arr m ρ c 0).trans (((dat1 (V3 m ρ) c).arrAt_in 0 rfl _).trans (A_eq1 (V3 m ρ) c 0))).trans (W3_arg4 m ρ c)

/-! ## After the third host stretch -/

theorem W5_v13 (c : Dev nD) : W5 m ρ c (Proc.devRef .tc main_v13)
    = rowBias (W4 m ρ c (Proc.devRef .tc main_v2)) (W4 m ρ c (Proc.devRef .tc main_arg0)) (W4 m ρ c (Proc.devRef .tc main_arg3)) := by
  show StableHlo.after hostOps2 (W4 m ρ c) (Proc.devRef .tc main_v13) = _
  after_results
  rfl
theorem W5_v15 (c : Dev nD) : W5 m ρ c (Proc.devRef .tc main_v15)
    = colBias (W4 m ρ c (Proc.devRef .tc main_v4)) (W4 m ρ c (Proc.devRef .tc main_arg4)) (W4 m ρ c (Proc.devRef .tc main_arg3)) := by
  show StableHlo.after hostOps2 (W4 m ρ c) (Proc.devRef .tc main_v15) = _
  after_results
  rfl
theorem W5_v3 (c : Dev nD) : W5 m ρ c (Proc.devRef .tc main_v3) = W4 m ρ c (Proc.devRef .tc main_v3) := by
  show StableHlo.after hostOps2 (W4 m ρ c) (Proc.devRef .tc main_v3) = _
  after_results
theorem W5_arg4 (c : Dev nD) : W5 m ρ c (Proc.devRef .tc main_arg4) = aM m c := by
  refine Eq.trans ?_ (W4_arg4 m ρ c)
  show StableHlo.after hostOps2 (W4 m ρ c) (Proc.devRef .tc main_arg4) = _
  after_results

/-! ## After region 2: the result -/

theorem W6_v16 (c : Dev nD) : W6 m ρ c (Proc.devRef .tc main_v16)
    = Region2.asm (W5 m ρ c (Proc.devRef .tc main_v3)) (W5 m ρ c (Proc.devRef .tc main_arg4))
        (W5 m ρ c (Proc.devRef .tc main_v13)) (W5 m ρ c (Proc.devRef .tc main_v15)) :=
  (W6_arr m ρ c 4).trans (Region2.final (V5 m ρ) c)

/-! ## The entries -/

/-- The start value of the row sums and the factor of the bilinear term, as the programs spell them. -/
abbrev z0 : EReal := Ideal.ofBits .f32 0x00000000#32
abbrev c2 : EReal := Ideal.ofBits .f32 0x40000000#32

/-- x · [within | between] at a column of the left half is x·within. -/
theorem prod0_left (c : Dev nD) (b : Fin 8192) (d : Fin 1024) (j : Fin 2048) (h : j.val = d.val) :
    Region0.prod (aX m c) (catW (aW m c) (aB m c)) (ix2 b j) = Spec.mm (aX m c) (aW m c) b d := by
  show Spec.mm (aX m c) (catW (aW m c) (aB m c)) b j = _
  unfold Spec.mm
  exact Finset.sum_congr rfl fun k _ => congrArg (aX m c (ix2 b k) * ·) (catW_left _ _ k j d h)

/-- x · [within | between] at a column of the right half is x·between. -/
theorem prod0_right (c : Dev nD) (b : Fin 8192) (d : Fin 1024) (j : Fin 2048) (h : j.val = 1024 + d.val) :
    Region0.prod (aX m c) (catW (aW m c) (aB m c)) (ix2 b j) = Spec.mm (aX m c) (aB m c) b d := by
  show Spec.mm (aX m c) (catW (aW m c) (aB m c)) b j = _
  unfold Spec.mm
  exact Finset.sum_congr rfl fun k _ => congrArg (aX m c (ix2 b k) * ·) (catW_right _ _ k j d (by omega))

/-- The left operand of the assembly at (b, d): x·between. -/
theorem v3_at (c : Dev nD) (b : Fin 8192) (d : Fin 1024) :
    W5 m ρ c (Proc.devRef .tc main_v3) (ix2 b d) = Spec.mm (aX m c) (aB m c) b d := by
  have hd : d.val < 1024 := d.isLt
  rw [W5_v3, W4_v3, W3_v3, W2_v1, rightHalf_at _ b d ⟨1024 + d.val, by omega⟩ rfl]
  exact prod0_right m c b d _ rfl

/-- The row bias at (b, 0): the quadratic form of row b of x through `within`, plus row b against `other`. -/
theorem v13_at (c : Dev nD) (b : Fin 8192) :
    W5 m ρ c (Proc.devRef .tc main_v13) (ix2 b (0 : Fin 1))
      = Spec.quad z0 (aX m c) (aW m c) b + Spec.lin (aX m c) (aO m c) b := by
  rw [W5_v13, rowBias_at, W4_arg0, W4_arg3, W4_v2, W3_v2, W2_v1]
  unfold Spec.quad Spec.lin
  refine congrArg (fun s => (z0 + s) + ∑ k : Fin 1024, aX m c (ix2 b k) * aO m c (ix2 k (0 : Fin 1)))
    (Finset.sum_congr rfl fun d _ => ?_)
  have hd : d.val < 1024 := d.isLt
  rw [leftHalf_at _ b d ⟨d.val, by omega⟩ rfl, prod0_left m c b d _ rfl]

/-- The column bias at (0, o): the quadratic form of row o of `models` through `within`, plus row o against `other`. -/
theorem v15_at (c : Dev nD) (o : Fin 4096) :
    W5 m ρ c (Proc.devRef .tc main_v15) (ix2 (0 : Fin 1) o)
      = Spec.quad z0 (aM m c) (aW m c) o + Spec.lin (aM m c) (aO m c) o := by
  rw [W5_v15, colBias_at, W4_arg4, W4_arg3, W4_v4]
  rfl

/-- THE RESULT AT (b, o): the kernel's arrangement of the five argument arrays. -/
theorem result_at (c : Dev nD) (b : Fin 8192) (o : Fin 4096) :
    W6 m ρ c (Proc.devRef .tc main_v16) (ix2 b o)
      = Spec.kernelForm z0 c2 (aX m c) (aW m c) (aB m c) (aO m c) (aM m c) b o := by
  rw [W6_v16]
  show Region2.asmAt _ _ _ _ b o = _
  unfold Region2.asmAt Spec.kernelForm
  rw [v13_at, v15_at, W5_arg4]
  refine congrArg (fun s => (c2 * s + (Spec.quad z0 (aX m c) (aW m c) b + Spec.lin (aX m c) (aO m c) b))
    + (Spec.quad z0 (aM m c) (aW m c) o + Spec.lin (aM m c) (aO m c) o)) (Finset.sum_congr rfl fun d _ => ?_)
  rw [v3_at]

end Cert.KernelIdeal.Fold

end
-- ==== Proof.lean ====
/-
  The kernel computes, for x : [8192, 1024], within, between : [1024, 1024], other : [1024, 1], models : [4096, 1024],

      out[b, o] = (2 · ∑_d (x·between)[b, d] · models[o, d] + (qx[b] + lx[b])) + (qm[o] + lm[o])

  in three tiled regions — x · [within | between] (whose halves are x·within and x·between), models · within, and the
  assembly — with the row sums qx[b] = 0 + ∑_d (x·within)[b, d] · x[b, d], qm[o] = 0 + ∑_d (models·within)[o, d] · models[o, d]
  and the products lx = x·other, lm = models·other formed on the host between the regions. The reference computes

      ((qx[b] + qm[o]) + ∑_d (2 · (x·between)[b, d]) · models[o, d]) + (lx[b] + lm[o]).

  At the ideal values (extended reals; a change of float format is the identity; a matrix product into a zero
  accumulator is the plain sum of products) the two are equal at EVERY input: sums of extended reals may be regrouped
  freely, and the factor 2, being a nonnegative real, distributes over the finite sum whatever its terms
  (`Spec.kernelForm_eq_refForm`). So the precondition is never opened.

  The three frames: the two kernel programs' are the generated frame certificates; the reference's is its generated run
  with the result dropped. The ideal pass rewrote nothing, so `preserves` is `True`.
  The value claim: the kernel's run with its result named (`Run.run_main`) puts the result buffer at the fold through
  @main's six segments, which read at (b, o) is the kernel's arrangement (`Fold.result_at`); the reference's generated run
  puts its result at its last stage, which read at (b, o) is the reference's arrangement (`RefValue.ref_at`).
-/
import proofs.«109604_j26637387170454_1_alg».proof.Defs
import proofs.«109604_j26637387170454_1_alg».proof.Proof.Gen.Kernel
import proofs.«109604_j26637387170454_1_alg».proof.Proof.Gen.Kernel.Skeleton
import proofs.«109604_j26637387170454_1_alg».proof.Proof.Gen.Kernel.Launch
import proofs.«109604_j26637387170454_1_alg».proof.Proof.Gen.Kernel.Points
import proofs.«109604_j26637387170454_1_alg».proof.Proof.Gen.Kernel.Frame
import proofs.«109604_j26637387170454_1_alg».proof.Proof.Gen.KernelIdeal
import proofs.«109604_j26637387170454_1_alg».proof.Proof.Gen.KernelIdeal.Skeleton
import proofs.«109604_j26637387170454_1_alg».proof.Proof.Gen.KernelIdeal.Launch
import proofs.«109604_j26637387170454_1_alg».proof.Proof.Gen.KernelIdeal.Points
import proofs.«109604_j26637387170454_1_alg».proof.Proof.Gen.KernelIdeal.Frame
import proofs.«109604_j26637387170454_1_alg».proof.Proof.Gen.ReferenceIdeal
import proofs.«109604_j26637387170454_1_alg».proof.Proof.Gen.ReferenceIdeal.Run
import proofs.«109604_j26637387170454_1_alg».proof.Proof.Gen.ReferenceIdeal.Read
import proofs.«109604_j26637387170454_1_alg».proof.Proof.Gen.Pre_finite_inputs
import proofs.«109604_j26637387170454_1_alg».proof.Proof.Spec
import proofs.«109604_j26637387170454_1_alg».proof.Proof.RefValue
import proofs.«109604_j26637387170454_1_alg».proof.Proof.KernelRun
import proofs.«109604_j26637387170454_1_alg».proof.Proof.HostFold
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments as launched: the generated frame certificate. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and leaves its arguments as launched: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the five arguments both programs run, and their results are equal entry by entry:
    at (b, o) the kernel's arrangement of the arguments equals the reference's on all extended reals. -/
theorem algebraic : Cert.algebraic_KernelIdeal_ReferenceIdeal := by
  intro m ρ m' ρ' _ hagree
  refine ⟨fun c => Cert.KernelIdeal.Gen.W6 m ρ c (Proc.devRef .tc Cert.KernelIdeal.main_v16),
    Cert.KernelIdeal.Run.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v23_eq, h0, h1, h2, h3, h4]
  funext i
  obtain ⟨b, o, rfl⟩ : ∃ (b : Fin 8192) (o : Fin 4096), i = ix2 b o := ⟨i 0, i 1, eq_ix2 i⟩
  exact (Cert.ReferenceIdeal.RefValue.ref_at _ _ _ _ _ b o).trans
    ((Cert.Spec.kernelForm_eq_refForm _ _ Cert.Spec.two_nonneg Cert.Spec.two_ne_top _ _ _ _ _ b o).symm.trans
      (Cert.KernelIdeal.Fold.result_at m ρ c b o).symm)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
